-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x1024 : Shape := ⟨3, ![4, 8192, 1024]⟩
abbrev S1024x1024 : Shape := ⟨2, ![1024, 1024]⟩
abbrev S1024 : Shape := ⟨1, ![1024]⟩
abbrev S_ : Shape := ⟨0, ![]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S4x8192x1024 .f32) (main_arg1 : FVec F S1024x1024 .f32) (main_arg2 : FVec F S1024 .f32) (main_arg3 : FVec F S1024 .f32) : IVec S_ 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S4x8192x1024 : Shape := ⟨3, ![4, 8192, 1024]⟩
abbrev S1024x1024 : Shape := ⟨2, ![1024, 1024]⟩
abbrev S1024 : Shape := ⟨1, ![1024]⟩
abbrev S32768x1024 : Shape := ⟨2, ![32768, 1024]⟩
abbrev S1x1024 : Shape := ⟨2, ![1, 1024]⟩

abbrev nBuf : Space → Nat
  | .hbm => 9
  | .vmem => 7
  | .smem => 0
  | _ => 0

abbrev bufTy : (tb : Table) → Fin (tcTables nBuf tb) → BufTy
  | .hbm, ⟨0, _⟩ => ⟨S4x8192x1024, .f32⟩
  | .hbm, ⟨1, _⟩ => ⟨S1024x1024, .f32⟩
  | .hbm, ⟨2, _⟩ => ⟨S1024, .f32⟩
  | .hbm, ⟨3, _⟩ => ⟨S1024, .f32⟩
  | .hbm, ⟨4, _⟩ => ⟨S32768x1024, .f32⟩
  | .hbm, ⟨5, _⟩ => ⟨S1x1024, .f32⟩
  | .hbm, ⟨6, _⟩ => ⟨S1x1024, .f32⟩
  | .hbm, ⟨7, _⟩ => ⟨S32768x1024, .f32⟩
  | .hbm, ⟨8, _⟩ => ⟨S4x8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S1024x1024, .f32⟩
  | .local _ .vmem, ⟨6, _⟩ => ⟨S1024x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S4x8192x1024_S32768x1024 : S4x8192x1024.ShapeCasts S32768x1024
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S32768x1024_S4x8192x1024 : S32768x1024.ShapeCasts S4x8192x1024
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S32768x1024.size a
  hwx0_4 : ∀ i : grid0.Coords, EltTy.bits .f32 = 32 ∨ (Rect.block (s := S32768x1024) S1024x1024.size (cc0_transform_4 i) (hinb0_4 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x8192x1024 : Shape := ⟨3, ![4, 8192, 1024]⟩
abbrev S1024x1024 : Shape := ⟨2, ![1024, 1024]⟩
abbrev S1024 : Shape := ⟨1, ![1024]⟩
abbrev S_ : Shape := ⟨0, ![]⟩
abbrev S1x1x1024 : Shape := ⟨3, ![1, 1, 1024]⟩

abbrev nBuf : Space → Nat
  | .hbm => 29
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024x1024, .f32⟩
  | .hbm, ⟨2, _⟩ => ⟨S1024, .f32⟩
  | .hbm, ⟨3, _⟩ => ⟨S1024, .f32⟩
  | .hbm, ⟨4, _⟩ => ⟨S_, .f32⟩
  | .hbm, ⟨5, _⟩ => ⟨S1024x1024, .f32⟩
  | .hbm, ⟨6, _⟩ => ⟨S1024x1024, .i1⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S4x8192x1024, .f32⟩
  | .hbm, ⟨15, _⟩ => ⟨S1x1x1024, .f32⟩
  | .hbm, ⟨16, _⟩ => ⟨S4x8192x1024, .f32⟩
  | .hbm, ⟨17, _⟩ => ⟨S4x8192x1024, .f32⟩
  | .hbm, ⟨18, _⟩ => ⟨S1x1x1024, .f32⟩
  | .hbm, ⟨19, _⟩ => ⟨S4x8192x1024, .f32⟩
  | .hbm, ⟨20, _⟩ => ⟨S4x8192x1024, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S4x8192x1024, .f32⟩
  | .hbm, ⟨25, _⟩ => ⟨S4x8192x1024, .f32⟩
  | .hbm, ⟨26, _⟩ => ⟨S_, .f32⟩
  | .hbm, ⟨27, _⟩ => ⟨S4x8192x1024, .f32⟩
  | .hbm, ⟨28, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v14 : Ref sig .tc := ⟨.hbm, 28, rfl⟩

abbrev nD : Nat := 1
abbrev τ : Topo := Topo.v7x

variable {F : FTy → Type} [FloatOps F]

class Facts₀ : Prop where
  bcast_S_S1024x1024 : S_.BroadcastsInDim S1024x1024 (![] : Fin 0 → Fin S1024x1024.rank)
  bcast_S1024_S1x1x1024_2 : S1024.BroadcastsInDim S1x1x1024 (![2] : Fin 1 → Fin S1x1x1024.rank)
  bcast_S1x1x1024_S4x8192x1024_0_1_2 : S1x1x1024.BroadcastsInDim S4x8192x1024 (![0, 1, 2] : Fin 3 → Fin S4x8192x1024.rank)
  bcast_S_S4x8192x1024 : S_.BroadcastsInDim S4x8192x1024 (![] : Fin 0 → Fin S4x8192x1024.rank)
  dot_S4x8192x1024_S1024x1024_S4x8192x1024_2_1_01_0_n_n_wf : DotDims.WF S4x8192x1024 S1024x1024 S4x8192x1024 [2] [1] [0, 1] [0] [] []

variable [Facts₀]

def dot_S4x8192x1024_S1024x1024_S4x8192x1024_2_1_01_0_n_n : DotDims S4x8192x1024 S1024x1024 S4x8192x1024 where
  lhsContracting := [2]
  rhsContracting := [1]
  lhsNonContracting := [0, 1]
  rhsNonContracting := [0]
  lhsBatch := []
  rhsBatch := []
  wf := dot_S4x8192x1024_S1024x1024_S4x8192x1024_2_1_01_0_n_n_wf

class Facts : Prop extends Facts₀ where

variable [Facts]
-- ==== Proof.SignLinear.lean ====
/-
  The mathematics of a linear layer with sign-binarized weights, over the extended reals.

  A weight `w` is replaced by `+1` when `0 ≤ w` and by `-1` otherwise. An output entry is
  `clip ((∑ₖ xₖ · s(wₖ)) · scale + bias)` with `clip y = min 100 (max (-100) y)`: one row of the
  activations against one row of the weights, one scale and one bias per output feature.

  Two programs may spell the `±1` differently: one selects between the two constants by the
  comparison bit, the other converts the bit to `0` or `1`, doubles it and subtracts one. The two
  spellings are one value for either bit (`two_mul_sub_one_eq_select`): `1·2 − 1 = 1` and
  `0·2 − 1 = −1` in the reals, so nothing here depends on an entry being finite.
-/
import Idealize.ShloMosaic.PureOps.Ideal
import Idealize.ShloMosaic.PureOps.Ideal.Laws
import Idealize.ShloMosaic.Lib.ValueIdx

noncomputable section

namespace Cert.SignLinear

open Idealize.ShloMosaic Idealize.ShloMosaic.ValueIdx

/-! ## The three float words that are evaluated -/

/-- The word `0x3F800000` is the real number one. -/
theorem ofBits_one : Ideal.ofBits .f32 0x3F800000#32 = ((1 : ℝ) : EReal) := by
  simp [Ideal.ofBits, Ideal.ieee, -EReal.coe_mul]; norm_num

/-- The word `0xBF800000` is minus one. -/
theorem ofBits_neg_one : Ideal.ofBits .f32 0xBF800000#32 = ((-1 : ℝ) : EReal) := by
  simp [Ideal.ofBits, Ideal.ieee, -EReal.coe_mul]; norm_num

/-- The word `0x40000000` is two. -/
theorem ofBits_two : Ideal.ofBits .f32 0x40000000#32 = ((2 : ℝ) : EReal) := by
  simp [Ideal.ofBits, Ideal.ieee, -EReal.coe_mul]; norm_num

/-! ## The binarized weight -/

/-- The sign of a weight as `±1`: `+1` when `0 ≤ w`, `-1` otherwise, selected by the comparison's bit. -/
def pm (w : EReal) : EReal :=
  Scalar.select (Ideal.cmp .oge w (Ideal.ofBits .f32 0x00000000#32))
    (Ideal.ofBits .f32 0x3F800000#32) (Ideal.ofBits .f32 0xBF800000#32)

/-- A bit read as the number `0` or `1`, doubled, less one, is the selection between `+1` and `-1` by that bit. -/
theorem two_mul_sub_one_eq_select (c : BitVec 1) :
    ((c.toNat : ℝ) : EReal) * Ideal.ofBits .f32 0x40000000#32 - Ideal.ofBits .f32 0x3F800000#32
      = Scalar.select c (Ideal.ofBits .f32 0x3F800000#32) (Ideal.ofBits .f32 0xBF800000#32) := by
  have hc : c = 0#1 ∨ c = 1#1 := by revert c; decide
  rw [ofBits_two, ofBits_one, ofBits_neg_one]
  rcases hc with rfl | rfl
  · rw [select_zero, ← EReal.coe_mul, ← EReal.coe_sub]
    congr 1; norm_num
  · rw [select_one, ← EReal.coe_mul, ← EReal.coe_sub]
    congr 1; norm_num

/-- The same for the weight's own comparison bit. -/
theorem pm_eq_two_mul_sub_one (w : EReal) :
    (((Ideal.cmp .oge w (Ideal.ofBits .f32 0x00000000#32)).toNat : ℝ) : EReal) * Ideal.ofBits .f32 0x40000000#32
        - Ideal.ofBits .f32 0x3F800000#32 = pm w :=
  two_mul_sub_one_eq_select _

/-! ## One output entry, and the whole result -/

/-- The lower clip bound, the word of `-100`. -/
abbrev lo : EReal := Ideal.ofBits .f32 0xC2C80000#32
/-- The upper clip bound, the word of `100`. -/
abbrev hi : EReal := Ideal.ofBits .f32 0x42C80000#32

/-- One output entry from a row of activations, a row of weights, a scale and a bias. -/
def entry (xrow wrow : Fin 1024 → EReal) (s b : EReal) : EReal :=
  min hi (max lo ((∑ k : Fin 1024, xrow k * pm (wrow k)) * s + b))

/-- The result over `[batch, position, feature]`: entry `(b, p, o)` pairs activation row `(b, p)` with weight row `o`. -/
def result (x : (⟨3, ![4, 8192, 1024]⟩ : Shape).Idx → EReal) (w : (⟨2, ![1024, 1024]⟩ : Shape).Idx → EReal)
    (s b : (⟨1, ![1024]⟩ : Shape).Idx → EReal) : (⟨3, ![4, 8192, 1024]⟩ : Shape).Idx → EReal :=
  fun i => entry (fun k => x (ix3 (i 0) (i 1) k)) (fun k => w (ix2 (i 2) k)) (s (ix1 (i 2))) (b (ix1 (i 2)))

/-- The same over the flattened rows `[batch · position, feature]`, scale and bias as one-row matrices. -/
def resultFlat (x : (⟨2, ![32768, 1024]⟩ : Shape).Idx → EReal) (w : (⟨2, ![1024, 1024]⟩ : Shape).Idx → EReal)
    (s b : (⟨2, ![1, 1024]⟩ : Shape).Idx → EReal) : (⟨2, ![32768, 1024]⟩ : Shape).Idx → EReal :=
  fun i => entry (fun k => x (ix2 (i 0) k)) (fun k => w (ix2 (i 1) k)) (s (ix2 (0 : Fin 1) (i 1))) (b (ix2 (0 : Fin 1) (i 1)))

/-- `result` at coordinates. -/
theorem result_apply (x : (⟨3, ![4, 8192, 1024]⟩ : Shape).Idx → EReal) (w : (⟨2, ![1024, 1024]⟩ : Shape).Idx → EReal)
    (s b : (⟨1, ![1024]⟩ : Shape).Idx → EReal) (n : Fin 4) (p : Fin 8192) (o : Fin 1024) :
    result x w s b (ix3 n p o) = entry (fun k => x (ix3 n p k)) (fun k => w (ix2 o k)) (s (ix1 o)) (b (ix1 o)) := rfl

/-- `resultFlat` at coordinates. -/
theorem resultFlat_apply (x : (⟨2, ![32768, 1024]⟩ : Shape).Idx → EReal) (w : (⟨2, ![1024, 1024]⟩ : Shape).Idx → EReal)
    (s b : (⟨2, ![1, 1024]⟩ : Shape).Idx → EReal) (r : Fin 32768) (o : Fin 1024) :
    resultFlat x w s b (ix2 r o) = entry (fun k => x (ix2 r k)) (fun k => w (ix2 o k)) (s (ix2 (0 : Fin 1) o)) (b (ix2 (0 : Fin 1) o)) := rfl

end Cert.SignLinear

end
-- ==== Proof.RefValue.lean ====
/-
  The reference program's result is the sign-binarized linear layer of `Cert.SignLinear`.

  Read one operation at a time, entry `(b, p, o)` of the reference's result is
  `min 100 (max (-100) ((∑ₖ x(b,p,k) · (bit(0 ≤ w(o,k)) · 2 − 1)) · scale(o) + bias(o)))`:
  the contraction pairs the activations' last axis with the weights' second axis, scale and
  bias are broadcast along the feature axis, and the two clip bounds are scalars broadcast to
  every entry. The doubled bit less one is the `±1` selection (`pm_eq_two_mul_sub_one`), so this
  is `SignLinear.result`.
-/
import proofs.«176505_j11218454577486_1_alg».proof.Proof.Gen.ReferenceIdeal.Read
import proofs.«176505_j11218454577486_1_alg».proof.Proof.SignLinear

noncomputable section

namespace Cert.ReferenceIdeal.RefValue

open Cert.ReferenceIdeal Cert.ReferenceIdeal.Read Cert.SignLinear
open Idealize.ShloMosaic Idealize.ShloMosaic.ValueIdx

/-- The activations' index the contraction reads: row `(n, p)`, column `k`. -/
theorem lidx_eq (n : Fin 4) (p : Fin 8192) (o k : Fin 1024) : lidx_main_v7 (ix3 n p o) k = ix3 n p k :=
  funext fun a => Fin.ext (by match a with | ⟨0, _⟩ => rfl | ⟨1, _⟩ => rfl | ⟨2, _⟩ => rfl)

/-- The weights' index the contraction reads: row `o`, column `k`. -/
theorem ridx_eq (n : Fin 4) (p : Fin 8192) (o k : Fin 1024) : ridx_main_v7 (ix3 n p o) k = ix2 o k :=
  funext fun a => Fin.ext (by match a with | ⟨0, _⟩ => rfl | ⟨1, _⟩ => rfl)

/-- Scale and bias are read at the feature coordinate. -/
theorem idx_scale_eq (n : Fin 4) (p : Fin 8192) (o : Fin 1024) : idx_main_v8 (idx_main_v9 (ix3 n p o)) = ix1 o :=
  funext fun a => Fin.ext (by match a with | ⟨0, _⟩ => rfl)
theorem idx_bias_eq (n : Fin 4) (p : Fin 8192) (o : Fin 1024) : idx_main_v11 (idx_main_v12 (ix3 n p o)) = ix1 o :=
  funext fun a => Fin.ext (by match a with | ⟨0, _⟩ => rfl)

/-- The binarized weight as the reference spells it, at an index: the comparison bit as a number, doubled, less one. -/
theorem weight_apply (x1 : S1024x1024.Idx → EReal) (j : S1024x1024.Idx) :
    val_main_v6 (F := Ideal) x1 j = pm (x1 j) := by
  rw [val_main_v6_apply, val_main_v5_apply, val_main_cst_1_apply, val_main_v4_apply, val_main_v3_apply,
    val_main_cst_0_apply, val_main_v2_apply, val_main_v1_apply, val_main_v0_apply, val_main_cst_apply]
  exact pm_eq_two_mul_sub_one (x1 j)

/-- THE REFERENCE'S RESULT is `SignLinear.result` of its four arguments. -/
theorem result_eq (x0 : S4x8192x1024.Idx → EReal) (x1 : S1024x1024.Idx → EReal) (x2 x3 : S1024.Idx → EReal) :
    val_main_v14 (F := Ideal) x0 x1 x2 x3 = result x0 x1 x2 x3 := by
  funext i
  obtain ⟨n, p, o, rfl⟩ : ∃ (n : Fin 4) (p : Fin 8192) (o : Fin 1024), i = ix3 n p o := ⟨i 0, i 1, i 2, eq_ix3 i⟩
  rw [result_apply, val_main_v14_apply, val_main_call0_v4_apply, val_main_call0_v3_apply, val_main_cst_3_apply,
    val_main_call0_v2_apply, val_main_call0_v1_apply, val_main_call0_v0_apply, val_main_cst_2_apply,
    val_main_v13_apply, val_main_v10_apply, val_main_v7_apply, val_main_v9_apply, val_main_v8_apply,
    val_main_v12_apply, val_main_v11_apply, idx_scale_eq, idx_bias_eq]
  simp only [lidx_eq, ridx_eq]
  have hw : ∀ k : Fin 1024, val_main_v6 (F := Ideal) x1 (ix2 o k) = pm (x1 (ix2 o k)) :=
    fun k => weight_apply x1 _
  simp only [hw]
  rfl

end Cert.ReferenceIdeal.RefValue

end
-- ==== Proof.Body.lean ====
/-
  What the kernel body computes for one output tile, entry by entry.

  The body loads a tile of 1024 activation rows, the whole weight matrix, and the scale and bias
  rows; it binarizes the weights to `±1` by the comparison `0 ≤ w`, multiplies the activation
  tile with the transposed binarized weights on the matrix unit into a zero accumulator,
  multiplies by the scale row and adds the bias row (each laid along every row of the tile), and
  clips to `[-100, 100]`. Entry `(p, q)` of the stored tile is therefore
  `SignLinear.entry` of activation row `p`, weight row `q`, scale `q` and bias `q`: the matrix
  product contracts the second axis of both operands, so its entry `(p, q)` is the sum over `k`
  of the left operand at `(p, k)` times the right operand at `(q, k)`; narrowing a float format is
  the identity on the extended reals.
-/
import proofs.«176505_j11218454577486_1_alg».proof.Proof.Gen.KernelIdeal.Skeleton
import proofs.«176505_j11218454577486_1_alg».proof.Proof.SignLinear
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Cert.SignLinear
open Idealize.ShloMosaic Idealize.ShloMosaic.ValueIdx

/-! ## The matrix product at an entry -/

/-- The left operand is read at the result's row. -/
theorem lhs_axis0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
/-- and at the contraction's position along its second axis. -/
theorem lhs_axis1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
/-- The right operand is read at the result's COLUMN along its first axis (the product is with the transpose), -/
theorem rhs_axis0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
/-- and at the contraction's position along its second. -/
theorem rhs_axis1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- Entry `(p, q)` of the product into a zero accumulator: row `p` of the left operand against row `q` of the right. -/
theorem matmul_entry (l r : FVec Ideal S1024x1024 .bf16) (p q : Fin 1024) :
    matmul dot_S1024x1024_S1024x1024_S1024x1024_1_1_0_0_n_n none l r (constant S1024x1024 .f32 0x00000000#32) (ix2 p q)
      = ∑ k : Fin 1024, l (ix2 p k) * r (ix2 q k) := by
  show FloatOps.matmul dot_S1024x1024_S1024x1024_S1024x1024_1_1_0_0_n_n none l r (constant S1024x1024 .f32 0x00000000#32) (ix2 p q) = _
  rw [Ideal.matmul_constant_zero_apply, ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p q) ((contrEquiv1 dot_S1024x1024_S1024x1024_S1024x1024_1_1_0_0_n_n 1024 rfl rfl).symm k) = ix2 p k := funext fun a => Fin.ext (by
    match a with
    | ⟨0, _⟩ => exact lhs_axis0 _ _
    | ⟨1, _⟩ => exact (lhs_axis1 _ _).trans hk)
  have er : dot_S1024x1024_S1024x1024_S1024x1024_1_1_0_0_n_n.rhsIdx (ix2 p q) ((contrEquiv1 dot_S1024x1024_S1024x1024_S1024x1024_1_1_0_0_n_n 1024 rfl rfl).symm k) = ix2 q k := funext fun a => Fin.ext (by
    match a with
    | ⟨0, _⟩ => exact rhs_axis0 _ _
    | ⟨1, _⟩ => exact (rhs_axis1 _ _).trans hk)
  rw [el, er]

/-! ## The scale and bias rows -/

/-- A one-row matrix laid along every row of the tile reads, at `(p, q)`, the row at `q`. -/
theorem row_entry (v : FVec Ideal S1x1024 .f32) (p q : Fin 1024) :
    broadcastTo S1024x1024 (shapeCast S1x1024 v shapeCasts_S1x1024_S1x1024) broadcasts_S1x1024_S1024x1024 (ix2 p q)
      = v (ix2 (0 : Fin 1) q) := by
  rw [shapeCast_self]
  exact broadcastTo_1b_ab_apply v broadcasts_S1x1024_S1024x1024 p q

/-! ## The binarized weights -/

/-- The binarized weight matrix at an index is the sign of the weight there. -/
theorem weight_entry (w : FVec Ideal S1024x1024 .f32) (j : S1024x1024.Idx) :
    (truncf .bf16 (select (cmpf .oge w (broadcast S1024x1024 (Scalar.ofBits .f32 0x00000000#32)))
      (broadcast S1024x1024 (Scalar.ofBits .f32 0x3F800000#32)) (broadcast S1024x1024 (Scalar.ofBits .f32 0xBF800000#32)))
      bitsLt_bf16_f32 : FVec Ideal S1024x1024 .bf16) j = pm (w j) := rfl

/-! ## The stored tile -/

/-- ENTRY `(p, q)` OF THE STORED TILE: activation row `p` of the tile against weight row `q`, scale `q`, bias `q`. -/
theorem pay_apply (w x : Vec Ideal S1024x1024 .f32) (s b : Vec Ideal S1x1024 .f32) (p q : Fin 1024) :
    k0_pay1 (F := Ideal) w x s b (ix2 p q)
      = entry (fun k => x (ix2 p k)) (fun k => w (ix2 q k)) (s (ix2 (0 : Fin 1) q)) (b (ix2 (0 : Fin 1) q)) := by
  unfold k0_pay1
  rw [minimumf_apply, maximumf_apply, addf_apply, mulf_apply, matmul_entry, row_entry, row_entry, shapeCast_self]
  simp only [weight_entry, truncf_apply]
  rfl

end Cert.KernelIdeal.Body

end
-- ==== Proof.Flatten.lean ====
/-
  Flattening the batch and position axes does not change the layer.

  The activations `[4, 8192, 1024]` read in row-major order as `[32768, 1024]` have row
  `(n, p)` at row `8192 · n + p`; the result read back from `[32768, 1024]` to `[4, 8192, 1024]`
  has entry `(n, p, o)` at `(8192 · n + p, o)`; scale and bias as one-row matrices `[1, 1024]`
  hold at `(0, o)` what the vectors hold at `o`. So the flattened layer of the flattened
  arguments, read back, is the layer of the arguments.
-/
import proofs.«176505_j11218454577486_1_alg».proof.Proof.SignLinear
import Idealize.ShloMosaic.Lib.Pipeline.Value
import Idealize.ShloMosaic.Lib.ValueLayout

noncomputable section

namespace Cert.SignLinear

open Idealize.ShloMosaic Idealize.ShloMosaic.ValueIdx

/-- Row `(n, p)` of `[4, 8192]` is a row of the `32768`. -/
theorem flat_row_lt (n : Fin 4) (p : Fin 8192) : n.val * 8192 + p.val < 32768 := by omega

/-- The flattened row of `(n, p)`. -/
abbrev flatRow (n : Fin 4) (p : Fin 8192) : Fin 32768 := ⟨n.val * 8192 + p.val, flat_row_lt n p⟩

/-- The flattened activations at `(8192 n + p, k)` are the activations at `(n, p, k)`. -/
theorem flatten_apply (x : (⟨3, ![4, 8192, 1024]⟩ : Shape).Idx → EReal)
    (h : (⟨3, ![4, 8192, 1024]⟩ : Shape).ShapeCasts ⟨2, ![32768, 1024]⟩) (n : Fin 4) (p : Fin 8192) (k : Fin 1024) :
    shapeCast ⟨2, ![32768, 1024]⟩ x h (ix2 (flatRow n p) k) = x (ix3 n p k) :=
  shapeCast_apply x h _ _ (by
    rw [Shape.rowMajor_val_three, Shape.rowMajor_val_two]
    show (n.val * 8192 + p.val) * 1024 + k.val = (n.val * 8192 + p.val) * 1024 + k.val
    rfl)

/-- A `[32768, 1024]` array read back as `[4, 8192, 1024]` has at `(n, p, o)` its entry `(8192 n + p, o)`. -/
theorem unflatten_apply (y : (⟨2, ![32768, 1024]⟩ : Shape).Idx → EReal)
    (h : (⟨2, ![32768, 1024]⟩ : Shape).ShapeCasts ⟨3, ![4, 8192, 1024]⟩) (n : Fin 4) (p : Fin 8192) (o : Fin 1024) :
    shapeCast ⟨3, ![4, 8192, 1024]⟩ y h (ix3 n p o) = y (ix2 (flatRow n p) o) :=
  shapeCast_apply y h _ _ (by
    rw [Shape.rowMajor_val_three, Shape.rowMajor_val_two]
    show (n.val * 8192 + p.val) * 1024 + o.val = (n.val * 8192 + p.val) * 1024 + o.val
    rfl)

/-- THE FLATTENED LAYER of the flattened arguments, read back, is the layer. -/
theorem unflatten_resultFlat (x : (⟨3, ![4, 8192, 1024]⟩ : Shape).Idx → EReal) (w : (⟨2, ![1024, 1024]⟩ : Shape).Idx → EReal)
    (s b : (⟨1, ![1024]⟩ : Shape).Idx → EReal)
    (hx : (⟨3, ![4, 8192, 1024]⟩ : Shape).ShapeCasts ⟨2, ![32768, 1024]⟩)
    (hr : (⟨1, ![1024]⟩ : Shape).ShapeCasts ⟨2, ![1, 1024]⟩)
    (hy : (⟨2, ![32768, 1024]⟩ : Shape).ShapeCasts ⟨3, ![4, 8192, 1024]⟩) :
    shapeCast ⟨3, ![4, 8192, 1024]⟩
        (resultFlat (shapeCast ⟨2, ![32768, 1024]⟩ x hx) w (shapeCast ⟨2, ![1, 1024]⟩ s hr) (shapeCast ⟨2, ![1, 1024]⟩ b hr)) hy
      = result x w s b := by
  funext i
  obtain ⟨n, p, o, rfl⟩ : ∃ (n : Fin 4) (p : Fin 8192) (o : Fin 1024), i = ix3 n p o := ⟨i 0, i 1, i 2, eq_ix3 i⟩
  rw [unflatten_apply, resultFlat_apply, result_apply, shapeCast_a_1a_apply, shapeCast_a_1a_apply]
  simp only [flatten_apply]

end Cert.SignLinear

end
-- ==== Proof.Tiles.lean ====
/-
  The kernel's result array: 32 row tiles of one whole-array function.

  The grid has 32 points. Point `t` is handed rows `1024 t … 1024 t + 1023` of the flattened
  activations, the whole weight matrix and the scale and bias rows (the same at every point), and
  writes rows `1024 t … 1024 t + 1023` of the flattened result. By `Body.pay_apply` the stored
  tile's entry `(p, q)` is `SignLinear.entry` of the tile's activation row `p`, weight row `q`,
  scale `q` and bias `q`, which is `SignLinear.resultFlat` of the arrays at `(1024 t + p, q)`:
  each tile is the restriction of ONE function of the arrays to its rows. The 32 tiles cover the
  `32768` rows (row `r` lies in tile `r / 1024`), so after the region the array holds
  `resultFlat`. Before the region the host flattens the activations and makes scale and bias
  one-row matrices; after it the host reads the result back as `[4, 8192, 1024]`; by
  `SignLinear.unflatten_resultFlat` the program's result is `SignLinear.result` of its arguments.
-/
import proofs.«176505_j11218454577486_1_alg».proof.Proof.Gen.KernelIdeal.Frame
import proofs.«176505_j11218454577486_1_alg».proof.Proof.Body
import proofs.«176505_j11218454577486_1_alg».proof.Proof.Flatten
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Tiles

open Cert.KernelIdeal Cert.KernelIdeal.Gen Cert.KernelIdeal.Body Cert.SignLinear

variable (m : (ℓ : Loc nD τ sig) → Buf (Elt Ideal) ℓ) (ρ : Dev nD → PrngReg)

theorem hz : (![0, 0] : Fin 2 → Nat) = fun _ => 0 := funext fun a => by fin_cases a <;> rfl

/-! ## Which block each window holds at a point -/

/-- Over the 32 points: the activations' and the result's block row is the point; every other block index is zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The activations' tile at point `t`, at `y`, is the flattened activations at row `1024 t + y₀`, column `y₁`. -/
theorem xtile_apply (c : Dev nD) (t : Fin cfg0.N) (y : S1024x1024.Idx) (k : S32768x1024.Idx)
    (hk0 : (k 0).val = 1024 * t.val + (y 0).val) (hk1 : (k 1).val = (y 1).val) :
    (iblk m c 0 t : Vec Ideal S1024x1024 .f32) y = (V m c main_v0 : S32768x1024.Idx → EReal) k := by
  obtain ⟨e0, e1, -⟩ := idx_facts t
  unfold iblk
  rw [View.read_apply]
  show V m c main_v0 _ = V m c main_v0 _
  congr 1
  funext a
  apply Fin.ext
  match a with
  | ⟨0, _⟩ => show win0_0.index t (0 : Fin 2) * 1024 + 1 * (y 0).val = (k 0).val; rw [e0, hk0]; omega
  | ⟨1, _⟩ => show win0_0.index t (1 : Fin 2) * 1024 + 1 * (y 1).val = (k 1).val; rw [e1, hk1]; omega

/-- The weights' block at every point is the whole weight matrix. -/
theorem wtile_apply (c : Dev nD) (t : Fin cfg0.N) (y : S1024x1024.Idx) :
    (iblk m c 1 t : Vec Ideal S1024x1024 .f32) y = (V m c main_arg1 : S1024x1024.Idx → EReal) y := by
  obtain ⟨-, -, e2, e3, -⟩ := idx_facts t
  unfold iblk
  rw [View.read_apply]
  show V m c main_arg1 _ = V m c main_arg1 _
  congr 1
  funext a
  apply Fin.ext
  match a with
  | ⟨0, _⟩ => show win0_1.index t (0 : Fin 2) * 1024 + 1 * (y 0).val = (y 0).val; rw [e2]; omega
  | ⟨1, _⟩ => show win0_1.index t (1 : Fin 2) * 1024 + 1 * (y 1).val = (y 1).val; rw [e3]; omega

/-- The scale's block at every point is the whole scale row. -/
theorem stile_apply (c : Dev nD) (t : Fin cfg0.N) (y : S1x1024.Idx) :
    (iblk m c 2 t : Vec Ideal S1x1024 .f32) y = (V m c main_v1 : S1x1024.Idx → EReal) y := by
  obtain ⟨-, -, -, -, e4, e5, -⟩ := idx_facts t
  unfold iblk
  rw [View.read_apply]
  show V m c main_v1 _ = V m c main_v1 _
  congr 1
  funext a
  apply Fin.ext
  match a with
  | ⟨0, _⟩ => show win0_2.index t (0 : Fin 2) * 1 + 1 * (y 0).val = (y 0).val; rw [e4]; omega
  | ⟨1, _⟩ => show win0_2.index t (1 : Fin 2) * 1024 + 1 * (y 1).val = (y 1).val; rw [e5]; omega

/-- The bias's block at every point is the whole bias row. -/
theorem btile_apply (c : Dev nD) (t : Fin cfg0.N) (y : S1x1024.Idx) :
    (iblk m c 3 t : Vec Ideal S1x1024 .f32) y = (V m c main_v2 : S1x1024.Idx → EReal) y := by
  obtain ⟨-, -, -, -, -, -, e6, e7, -⟩ := idx_facts t
  unfold iblk
  rw [View.read_apply]
  show V m c main_v2 _ = V m c main_v2 _
  congr 1
  funext a
  apply Fin.ext
  match a with
  | ⟨0, _⟩ => show win0_3.index t (0 : Fin 2) * 1 + 1 * (y 0).val = (y 0).val; rw [e6]; omega
  | ⟨1, _⟩ => show win0_3.index t (1 : Fin 2) * 1024 + 1 * (y 1).val = (y 1).val; rw [e7]; omega

/-! ## One tile is the flattened layer on its rows -/

/-- A stored tile's entry `(p, q)` is the flattened layer at `(r, q)` when the tile's activation row `p` is the arrays' row `r`
    and the tile's weights, scale and bias are the arrays'. -/
theorem tile_entry (W X : Vec Ideal S1024x1024 .f32) (S B : Vec Ideal S1x1024 .f32)
    (xs : S32768x1024.Idx → EReal) (ws : S1024x1024.Idx → EReal) (ss bs : S1x1024.Idx → EReal)
    (p q : Fin 1024) (r : Fin 32768)
    (hX : ∀ k : Fin 1024, X (ix2 p k) = xs (ix2 r k)) (hW : ∀ k : Fin 1024, W (ix2 q k) = ws (ix2 q k))
    (hS : S (ix2 (0 : Fin 1) q) = ss (ix2 (0 : Fin 1) q)) (hB : B (ix2 (0 : Fin 1) q) = bs (ix2 (0 : Fin 1) q)) :
    k0_pay1 (F := Ideal) W X S B (ix2 p q) = resultFlat xs ws ss bs (ix2 r q) := by
  rw [pay_apply, resultFlat_apply]
  simp only [hX, hW, hS, hB]

/-- Row `p` of tile `t` is a row of the array. -/
theorem tile_row_lt (t : Fin cfg0.N) (p : Fin 1024) : 1024 * t.val + p.val < 32768 := by
  have ht : t.val < 32 := lt_of_lt_of_eq t.isLt (show cfg0.N = 32 from N_0)
  omega

/-- WHAT POINT `t` WRITES BACK is block `t` of the flattened layer of the arrays as the region finds them. -/
theorem flushed_eq (c : Dev nD) (t : Fin cfg0.N) :
    (dats m 0 c).flushed 4 t = ((cfg0.win 4).blk t).view.read (Elt Ideal)
      (resultFlat (V m c main_v0) (V m c main_arg1) (V m c main_v1) (V m c main_v2)) := by
  show (cfg0.win 4).cut (grid0.coords t) ((dats m 0 c).after 4 t) = _
  rw [after0_4]
  unfold out0_4
  rw [View.canon_unit_zero hz]
  simp only [View.ld_unit_zero (S := S1024x1024) hz, View.ld_unit_zero (S := S1x1024) hz]
  obtain ⟨-, -, -, -, -, -, -, -, e8, e9⟩ := idx_facts t
  funext j
  obtain ⟨p, q, rfl⟩ : ∃ (p q : Fin 1024), j = ix2 p q :=
    ⟨⟨(j 0).val, (j 0).isLt⟩, ⟨(j 1).val, (j 1).isLt⟩, funext fun a => by match a with | ⟨0, _⟩ => rfl | ⟨1, _⟩ => rfl⟩
  show k0_pay1 (F := Ideal) (iblk m c 1 t) (iblk m c 0 t) (iblk m c 2 t) (iblk m c 3 t) (ix2 p q)
    = resultFlat (V m c main_v0) (V m c main_arg1) (V m c main_v1) (V m c main_v2) (((cfg0.win 4).blk t).view.emb (ix2 p q))
  have hemb : ((cfg0.win 4).blk t).view.emb (ix2 p q) = ix2 (⟨1024 * t.val + p.val, tile_row_lt t p⟩ : Fin 32768) q := by
    funext a
    apply Fin.ext
    match a with
    | ⟨0, _⟩ => show win0_4.index t (0 : Fin 2) * 1024 + 1 * p.val = 1024 * t.val + p.val; rw [e8]; omega
    | ⟨1, _⟩ => show win0_4.index t (1 : Fin 2) * 1024 + 1 * q.val = q.val; rw [e9]; omega
  rw [hemb]
  exact tile_entry (iblk m c 1 t) (iblk m c 0 t) (iblk m c 2 t) (iblk m c 3 t)
    (V m c main_v0) (V m c main_arg1) (V m c main_v1) (V m c main_v2) p q ⟨1024 * t.val + p.val, tile_row_lt t p⟩
    (fun k => xtile_apply m c t (ix2 p k) (ix2 (⟨1024 * t.val + p.val, tile_row_lt t p⟩ : Fin 32768) k) rfl rfl)
    (fun k => wtile_apply m c t (ix2 q k))
    (stile_apply m c t (ix2 (0 : Fin 1) q))
    (btile_apply m c t (ix2 (0 : Fin 1) q))

/-! ## The tiles cover the array -/

/-- An index of the array is in point `t`'s block iff each coordinate is in the block's range on its axis. -/
theorem mem_blk (t : Fin cfg0.N) (i : S32768x1024.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v3).slice (win0_4.rect t)).set ↔ _
  rw [View.set_slice_whole, Rect.mem_set_unit]
  exact Iff.rfl

/-- Row `r` of the array lies in the tile of point `r / 1024`. -/
theorem cover (i : S32768x1024.Idx) :
    ∃ t : Fin cfg0.N, (cfg0.win 4).flush t = true ∧ i ∈ ((cfg0.win 4).blk t).view.set := by
  have hi0 : (i 0).val < 32768 := (i 0).isLt
  have hi1 : (i 1).val < 1024 := (i 1).isLt
  have hN : cfg0.N = 32 := N_0
  have ht : (i 0).val / 1024 < cfg0.N := by rw [hN]; omega
  obtain ⟨-, -, -, -, -, -, -, -, e8, e9⟩ := idx_facts ⟨(i 0).val / 1024, ht⟩
  refine ⟨⟨(i 0).val / 1024, ht⟩, flush0_4 _, ?_⟩
  rw [mem_blk]
  intro a
  match a with
  | ⟨0, _⟩ =>
    show win0_4.index ⟨(i 0).val / 1024, ht⟩ (0 : Fin 2) * 1024 ≤ (i 0).val ∧ (i 0).val < win0_4.index ⟨(i 0).val / 1024, ht⟩ (0 : Fin 2) * 1024 + 1024
    rw [e8]
    show (i 0).val / 1024 * 1024 ≤ (i 0).val ∧ (i 0).val < (i 0).val / 1024 * 1024 + 1024
    omega
  | ⟨1, _⟩ =>
    show win0_4.index ⟨(i 0).val / 1024, ht⟩ (1 : Fin 2) * 1024 ≤ (i 1).val ∧ (i 1).val < win0_4.index ⟨(i 0).val / 1024, ht⟩ (1 : Fin 2) * 1024 + 1024
    rw [e9]
    omega

/-- THE RESULT ARRAY after the region is the flattened layer of the arrays as the region finds them. -/
theorem final (c : Dev nD) :
    (dats m 0 c).arrAt 4 cfg0.N = resultFlat (V m c main_v0) (V m c main_arg1) (V m c main_v1) (V m c main_v2) :=
  (dats m 0 c).arrAt_eq_of_cover 4 _ (fun t _ => flushed_eq m c t) cover

/-! ## The host operations around the region -/

/-- The region finds the activations flattened. -/
theorem V_main_v0 (c : Dev nD) : (V m c main_v0 : S32768x1024.Idx → EReal)
    = shapeCast S32768x1024 (m ((c : Thread nD τ).loc main_arg0)) shapeCasts_S4x8192x1024_S32768x1024 := by
  show StableHlo.after hostOps0 (fun b => m (c, b)) (Proc.devRef .tc main_v0) = _
  after_results
  rfl

/-- The region finds the scale as a one-row matrix. -/
theorem V_main_v1 (c : Dev nD) : (V m c main_v1 : S1x1024.Idx → EReal)
    = shapeCast S1x1024 (m ((c : Thread nD τ).loc main_arg2)) shapeCasts_S1024_S1x1024 := by
  show StableHlo.after hostOps0 (fun b => m (c, b)) (Proc.devRef .tc main_v1) = _
  after_results
  rfl

/-- The region finds the bias as a one-row matrix. -/
theorem V_main_v2 (c : Dev nD) : (V m c main_v2 : S1x1024.Idx → EReal)
    = shapeCast S1x1024 (m ((c : Thread nD τ).loc main_arg3)) shapeCasts_S1024_S1x1024 := by
  show StableHlo.after hostOps0 (fun b => m (c, b)) (Proc.devRef .tc main_v2) = _
  after_results
  rfl

/-- After the region the host reads the result array back as `[4, 8192, 1024]`: the program's result is the layer. -/
theorem tail_eq (c : Dev nD) :
    Pipeline.afterTail₀ cfgs (dats m) 0 (V0 m) [hostOps1] c main_v4
      = result (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v4) = _
  after_results
  have harr := (Pipeline.withArrays_arr spec0 launch0.win.arr_inj c (V0 m c)
    (fun w => (dats m 0 c).arrAt w cfg0.N) 4).trans (final m c)
  show shapeCast S4x8192x1024 (Pipeline.withArrays spec0 c (V0 m c) (fun w => (dats m 0 c).arrAt w cfg0.N)
    (Proc.devRef .tc (Pipeline.arrRef spec0 4))) shapeCasts_S32768x1024_S4x8192x1024 = _
  rw [harr, V_main_v0 m c, V_main_v1 m c, V_main_v2 m c, V_main_arg1 m c]
  exact unflatten_resultFlat _ _ _ _ _ _ _

/-! ## The run, read -/

/-- Every weakly fair execution of the program terminates with its result at the layer of its arguments, the arguments unchanged. -/
theorem run : θ_run defs (onTc (τ := τ) (main (F := Ideal))) ⟨m, fun _ => 0, ρ⟩ fun r => ∀ c : Dev nD,
      r.2.mem ((c : Thread nD τ).loc main_v4)
        = result (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Tiles

end
-- ==== Proof.lean ====
/-
  A linear layer with sign-binarized weights, scale, bias and clipping: the tiled kernel and the
  plain reference compute the same function over the extended reals.

  Both programs compute, for activations `x : [4, 8192, 1024]`, weights `w : [1024, 1024]`, scale
  and bias `[1024]`, the array whose entry `(n, p, o)` is
  `min 100 (max (-100) ((∑ₖ x(n,p,k) · s(w(o,k))) · scale(o) + bias(o)))`, where `s(w)` is `+1`
  when `0 ≤ w` and `-1` otherwise (`SignLinear.result`).

  The kernel flattens the first two axes, cuts the `32768` rows into 32 tiles of `1024` rows, and on
  each tile selects `±1` by the comparison bit, multiplies on the matrix unit into a zero
  accumulator, scales, shifts and clips (`Body.pay_apply`); the tiles are the restrictions of one
  function of the arrays and cover the result (`Tiles.final`), which the host reads back as
  `[4, 8192, 1024]` (`Tiles.run`). The reference forms `±1` as the comparison bit converted to a
  number, doubled, less one, contracts with one `dot_general`, broadcasts scale and bias along the
  feature axis and clips (`RefValue.result_eq`). The two spellings of `±1` agree for either bit,
  and every other operation is the same operation on both sides read at the same entries, so no
  step uses that the inputs are finite.

  The three frames: the kernel's at both instances is the generated frame of its one region; the
  reference has no region, and its frame is its run with the result dropped. The idealized kernel
  is the kernel's own text (no rewrite was applied), so `preserves` has nothing to show.
-/
import proofs.«176505_j11218454577486_1_alg».proof.Defs
import proofs.«176505_j11218454577486_1_alg».proof.Proof.Gen.Kernel
import proofs.«176505_j11218454577486_1_alg».proof.Proof.Gen.Kernel.Skeleton
import proofs.«176505_j11218454577486_1_alg».proof.Proof.Gen.Kernel.Launch
import proofs.«176505_j11218454577486_1_alg».proof.Proof.Gen.Kernel.Points
import proofs.«176505_j11218454577486_1_alg».proof.Proof.Gen.Kernel.Frame
import proofs.«176505_j11218454577486_1_alg».proof.Proof.Gen.KernelIdeal
import proofs.«176505_j11218454577486_1_alg».proof.Proof.Gen.KernelIdeal.Skeleton
import proofs.«176505_j11218454577486_1_alg».proof.Proof.Gen.KernelIdeal.Launch
import proofs.«176505_j11218454577486_1_alg».proof.Proof.Gen.KernelIdeal.Points
import proofs.«176505_j11218454577486_1_alg».proof.Proof.Gen.KernelIdeal.Frame
import proofs.«176505_j11218454577486_1_alg».proof.Proof.Gen.ReferenceIdeal
import proofs.«176505_j11218454577486_1_alg».proof.Proof.Gen.Pre_finite_inputs
import proofs.«176505_j11218454577486_1_alg».proof.Proof.Gen.ReferenceIdeal.Run
import proofs.«176505_j11218454577486_1_alg».proof.Proof.Gen.ReferenceIdeal.Read
import proofs.«176505_j11218454577486_1_alg».proof.Proof.RefValue
import proofs.«176505_j11218454577486_1_alg».proof.Proof.Tiles
import Idealize.ShloMosaic.Adequacy
import Idealize.ShloMosaic.Init

noncomputable section

namespace Cert.Proof

open Idealize.ShloMosaic Idealize.ShloMosaic.TcCoe Idealize.SL.Sem

/-- The kernel runs and keeps its arguments: its one region's frame. -/
theorem frame_kernel : Cert.frame_Kernel := fun m ρ _ => Cert.Kernel.Gen.frame m ρ

/-- The same at the extended reals. -/
theorem frame_kernelIdeal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten between the kernel and its idealization. -/
theorem preserves : Cert.preserves_Kernel_KernelIdeal := trivial

/-- Both programs end with their result at `SignLinear.result` of the arguments, which agree. -/
theorem algebraic : Cert.algebraic_KernelIdeal_ReferenceIdeal := by
  intro m ρ m' ρ' _ hagree
  refine ⟨fun c => Cert.SignLinear.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Tiles.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
